-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩
abbrev S1x1200000 : Shape := ⟨2, ![1, 1200000]⟩
abbrev S1200000 : Shape := ⟨1, ![1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn_part2 {F : FTy → Type} [FloatOps F] (main_arg1 : IVec S2x1200000 32) (main_v33 : IVec S_ 1) : IVec S_ 1 :=
  let main_v34 : IVec S1x1200000 32 := (extractStridedSlice S1x1200000 ![0, 0] · slices_S2x1200000_S1x1200000_0_0) main_arg1
  let main_v35 : IVec S1200000 32 := shapeCast S1200000 main_v34 shapeCasts_S1x1200000_S1200000
  let main_c_12 : IVec S_ 32 := constantI S_ 32 0#32
  let main_v36 : IVec S1200000 32 := broadcastInDim S1200000 ![] bcast_S_S1200000 main_c_12
  let main_v37 : IVec S1200000 1 := cmpi .slt main_v35 main_v36
  let main_c_13 : IVec S_ 32 := constantI S_ 32 100000#32
  let main_v38 : IVec S1200000 32 := broadcastInDim S1200000 ![] bcast_S_S1200000 main_c_13
  let main_v39 : IVec S1200000 32 := addi main_v35 main_v38
  let main_v40 : IVec S1200000 32 := select main_v37 main_v39 main_v35
  let main_c_14 : IVec S_ 32 := constantI S_ 32 0#32
  let main_v41 : IVec S1200000 32 := broadcastInDim S1200000 ![] bcast_S_S1200000 main_c_14
  let main_v42 : IVec S1200000 1 := cmpi .sge main_v40 main_v41
  let main_c_15 : IVec S_ 32 := constantI S_ 32 99999#32
  let main_v43 : IVec S1200000 32 := broadcastInDim S1200000 ![] bcast_S_S1200000 main_c_15
  let main_v44 : IVec S1200000 1 := cmpi .sle main_v40 main_v43
  let main_v45 : IVec S1200000 1 := andi main_v42 main_v44
  let main_c_16 : IVec S_ 1 := constantI S_ 1 1#1
  let main_v46 : IVec S_ 1 := (fun x v => Host.reduce IntOp.andi x v reducesTo_S1200000_S_d0 h_S_) main_v45 main_c_16
  let main_v47 : IVec S_ 1 := andi main_v33 main_v46
  main_v47

def fn_part1 {F : FTy → Type} [FloatOps F] (main_arg1 : IVec S2x1200000 32) (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 78
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1, .i32⟩
  | .hbm, ⟨27, _⟩ => ⟨S_, .i32⟩
  | .hbm, ⟨28, _⟩ => ⟨S1200000x1, .i32⟩
  | .hbm, ⟨29, _⟩ => ⟨S1200000x1, .i1⟩
  | .hbm, ⟨30, _⟩ => ⟨S1x1, .i32⟩
  | .hbm, ⟨31, _⟩ => ⟨S1200000x1, .i32⟩
  | .hbm, ⟨32, _⟩ => ⟨S1200000x1, .i1⟩
  | .hbm, ⟨33, _⟩ => ⟨S1200000x1, .i1⟩
  | .hbm, ⟨34, _⟩ => ⟨S_, .i1⟩
  | .hbm, ⟨35, _⟩ => ⟨S1200000, .i1⟩
  | .hbm, ⟨36, _⟩ => ⟨S1200000x64, .f32⟩
  | .hbm, ⟨37, _⟩ => ⟨S1200000x64, .i1⟩
  | .hbm, ⟨38, _⟩ => ⟨S_, .f32⟩
  | .hbm, ⟨39, _⟩ => ⟨S1200000x64, .f32⟩
  | .hbm, ⟨40, _⟩ => ⟨S1200000x64, .f32⟩
  | .hbm, ⟨41, _⟩ => ⟨S_, .f32⟩
  | .hbm, ⟨42, _⟩ => ⟨S100000x64, .f32⟩
  | .hbm, ⟨43, _⟩ => ⟨S1200000x1, .i32⟩
  | .hbm, ⟨44, _⟩ => ⟨S100000x64, .f32⟩
  | .hbm, ⟨45, _⟩ => ⟨S100000x1, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1, .i32⟩
  | .hbm, ⟨57, _⟩ => ⟨S_, .i32⟩
  | .hbm, ⟨58, _⟩ => ⟨S1200000x1, .i32⟩
  | .hbm, ⟨59, _⟩ => ⟨S1200000x1, .i1⟩
  | .hbm, ⟨60, _⟩ => ⟨S1x1, .i32⟩
  | .hbm, ⟨61, _⟩ => ⟨S1200000x1, .i32⟩
  | .hbm, ⟨62, _⟩ => ⟨S1200000x1, .i1⟩
  | .hbm, ⟨63, _⟩ => ⟨S1200000x1, .i1⟩
  | .hbm, ⟨64, _⟩ => ⟨S_, .i1⟩
  | .hbm, ⟨65, _⟩ => ⟨S1200000, .i1⟩
  | .hbm, ⟨66, _⟩ => ⟨S1200000x64, .f32⟩
  | .hbm, ⟨67, _⟩ => ⟨S1200000x64, .i1⟩
  | .hbm, ⟨68, _⟩ => ⟨S_, .f32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S100000x64, .f32⟩
  | .hbm, ⟨73, _⟩ => ⟨S1200000x1, .i32⟩
  | .hbm, ⟨74, _⟩ => ⟨S100000x64, .f32⟩
  | .hbm, ⟨75, _⟩ => ⟨S100000x1, .f32⟩
  | .hbm, ⟨76, _⟩ => ⟨S1x64, .f32⟩
  | .hbm, ⟨77, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v15 : Ref sig .tc := ⟨.hbm, 70, rfl⟩
abbrev main_cst_2 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S_, .f32⟩
  | .hbm, ⟨60, _⟩ => ⟨S1200000, .f32⟩
  | .hbm, ⟨61, _⟩ => ⟨S_, .f32⟩
  | .hbm, ⟨62, _⟩ => ⟨S100000, .f32⟩
  | .hbm, ⟨63, _⟩ => ⟨S1200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageSpec.lean ====
/-
  One mean-aggregation graph layer's dense part, entry by entry, on the extended reals — the function both programs
  compute per node once the neighbour sums and the in-degrees are given.

  For a node (row) `r` and an output feature `j`, with `S` the neighbour-sum rows, `cnt` the in-degrees, `X` the node's
  own features, `Wl`, `Wr` the two 64 × 64 weight matrices and `b` the bias:

      entry r j = (∑ k, (S r k / max (cnt r) 1) · Wl k j) + b j + ∑ k, X r k · Wr k j,

  followed by `max · 0` where the layer has a rectifier. The quotient is the extended reals' (`Ideal.div`), the two
  constants are kept as the f32 words `1.0` and `0.0` read at the ideal instance, never evaluated: both programs carry
  the same words. An entry depends only on row `r` of `S`, `cnt` and `X`, which is what lets a row block of the node
  axis be computed from the block's rows alone (`entry_congr`).
-/
import Idealize.ShloMosaic.PureOps.Ideal
import Idealize.ShloMosaic.Lib.ValueIdx

noncomputable section

open scoped BigOperators

namespace Cert.Sage

open Idealize.ShloMosaic Idealize.ShloMosaic.ValueIdx

/-- The f32 word `1.0` at the ideal instance (the floor under the in-degree). -/
abbrev one : EReal := Ideal.ofBits .f32 0x3F800000#32
/-- The f32 word `0.0` at the ideal instance (the rectifier's threshold). -/
abbrev zero : EReal := Ideal.ofBits .f32 0x00000000#32

/-- An `n × d` array of extended reals, indexed as the programs index it. -/
abbrev Arr (n d : Nat) : Type := (⟨2, ![n, d]⟩ : Shape).Idx → EReal

/-- Entry `(r, j)` of the layer over `n` nodes: the mean of the neighbours through `Wl`, the bias, the node itself
    through `Wr`; rectified when `relu`. -/
def entry (relu : Bool) {n : Nat} (S : Arr n 64) (cnt : Fin n → EReal) (X : Arr n 64) (Wl : Arr 64 64) (b : Fin 64 → EReal)
    (Wr : Arr 64 64) (r : Fin n) (j : Fin 64) : EReal :=
  let d := (∑ k : Fin 64, Ideal.div (S (ix2 r k)) (max (cnt r) one) * Wl (ix2 k j)) + b j + ∑ k : Fin 64, X (ix2 r k) * Wr (ix2 k j)
  if relu then max d zero else d

/-- The layer's whole `n × 64` result. -/
def layer (relu : Bool) {n : Nat} (S : Arr n 64) (cnt : Fin n → EReal) (X : Arr n 64) (Wl : Arr 64 64) (b : Fin 64 → EReal)
    (Wr : Arr 64 64) : Arr n 64 :=
  fun i => entry relu S cnt X Wl b Wr ⟨(i 0).val, idx2_lt0 i⟩ ⟨(i 1).val, idx2_lt1 i⟩

/-- The result at `(r, j)` is the entry. -/
theorem layer_ix2 (relu : Bool) {n : Nat} (S : Arr n 64) (cnt : Fin n → EReal) (X : Arr n 64) (Wl : Arr 64 64) (b : Fin 64 → EReal)
    (Wr : Arr 64 64) (r : Fin n) (j : Fin 64) : layer relu S cnt X Wl b Wr (ix2 r j) = entry relu S cnt X Wl b Wr r j := rfl

/-- An entry reads only its own row: two settings (of possibly different heights) that agree on row `r` of the one and
    row `r'` of the other give the same entry. -/
theorem entry_congr (relu : Bool) {n n' : Nat} (S : Arr n 64) (cnt : Fin n → EReal) (X : Arr n 64) (S' : Arr n' 64)
    (cnt' : Fin n' → EReal) (X' : Arr n' 64) (Wl : Arr 64 64) (b : Fin 64 → EReal) (Wr : Arr 64 64) (r : Fin n) (r' : Fin n')
    (j : Fin 64) (hS : ∀ k : Fin 64, S (ix2 r k) = S' (ix2 r' k)) (hc : cnt r = cnt' r')
    (hX : ∀ k : Fin 64, X (ix2 r k) = X' (ix2 r' k)) :
    entry relu S cnt X Wl b Wr r j = entry relu S' cnt' X' Wl b Wr r' j := by
  unfold entry
  simp only [hS, hc, hX]

/-- The two layers in sequence over the 100000 nodes, given how neighbour sums are formed (`agg`) and the in-degrees:
    a rectified first layer whose output is aggregated again and is the second layer's own-feature input. -/
def twoLayer (agg : Arr 100000 64 → Arr 100000 64) (cnt : Fin 100000 → EReal) (x : Arr 100000 64) (W1l : Arr 64 64)
    (b1 : Fin 64 → EReal) (W1r W2l : Arr 64 64) (b2 : Fin 64 → EReal) (W2r : Arr 64 64) : Arr 100000 64 :=
  layer false (agg (layer true (agg x) cnt x W1l b1 W1r)) cnt (layer true (agg x) cnt x W1l b1 W1r) W2l b2 W2r

end Cert.Sage

end
-- ==== Proof.KPayload.lean ====
/-
  The two kernel bodies' stored value, read at one entry of the row block: each is one graph layer's dense part
  (`Cert.Sage.entry`) of the body's six loaded blocks — the neighbour-sum rows, the in-degree column, the node's own
  rows, the two weight matrices and the bias row — the first body rectified, the second not.
-/
import proofs.«418279_j34196529610766_2_alg».proof.Proof.Gen.KernelIdeal.Skeleton
import proofs.«418279_j34196529610766_2_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.TcCoe Idealize.ShloMosaic.ValueIdx Cert.KernelIdeal Cert.KernelIdeal.Gen

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The 10000 × 64 by 64 × 64 product at an entry -/

/-- The left operand's row coordinate is the output's row. -/
theorem lhs_axis0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contraction index. -/
theorem lhs_axis1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
/-- The right operand's row coordinate is the contraction index. -/
theorem rhs_axis0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
/-- The right operand's column coordinate is the output's column. -/
theorem rhs_axis1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into the zero accumulator, at row `p` and column `q`: the sum over the 64 inner indices of the left
    operand's row `p` against the right operand's column `q`. -/
theorem matmul_zero_entry (A : FVec Ideal S10000x64 .f32) (B : FVec Ideal S64x64 .f32) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The mean of the neighbours, one term -/

/-- The neighbour sums divided by the in-degree floored at `c`, at row `p` and inner index `k`: the row's own
    in-degree divides every feature of the row. -/
theorem mean_term (c : Ideal .f32) (v0 : FVec Ideal S10000x1 .f32) (v2 : FVec Ideal S10000x64 .f32) (p : Fin 10000) (k : Fin 64) :
    divf v2 (broadcastTo S10000x64 (maximumf v0 (broadcast S10000x1 c)) broadcasts_S10000x1_S10000x64) (ix2 p k)
      = Ideal.div (v2 (ix2 p k)) (max (v0 (ix2 p 0)) c) := by
  rw [divf_apply, broadcastTo_a1_ab_apply, maximumf_apply, broadcast_apply]

/-! ## The two bodies -/

/-- The first body's stored value at row `p`, feature `q` of the block: the rectified layer entry of the loaded blocks. -/
theorem pay0_entry (v0 : Vec Ideal S10000x1 .f32) (v2 : Vec Ideal S10000x64 .f32) (v8 : Vec Ideal S64x64 .f32)
    (v10 : Vec Ideal S1x64 .f32) (v14 : Vec Ideal S10000x64 .f32) (v15 : Vec Ideal S64x64 .f32) (p : Fin 10000) (q : Fin 64) :
    k0_pay1 (F := Ideal) v0 v2 v8 v10 v14 v15 (ix2 p q)
      = Cert.Sage.entry true v2 (fun r => v0 (ix2 r 0)) v14 v8 (fun j => v10 (ix2 0 j)) v15 p q := by
  unfold k0_pay1 Cert.Sage.entry
  simp only [shapeCast_self]
  rw [maximumf_apply, addf_apply, addf_apply, matmul_zero_entry, matmul_zero_entry, broadcastTo_1b_ab_apply, broadcast_apply]
  simp only [mean_term]
  rfl

/-- The second body's stored value at row `p`, feature `q`: the same entry without the rectifier. -/
theorem pay1_entry (v0 : Vec Ideal S10000x1 .f32) (v2 : Vec Ideal S10000x64 .f32) (v8 : Vec Ideal S64x64 .f32)
    (v10 : Vec Ideal S1x64 .f32) (v14 : Vec Ideal S10000x64 .f32) (v16 : Vec Ideal S64x64 .f32) (p : Fin 10000) (q : Fin 64) :
    k1_pay1 (F := Ideal) v0 v2 v8 v10 v14 v16 (ix2 p q)
      = Cert.Sage.entry false v2 (fun r => v0 (ix2 r 0)) v14 v8 (fun j => v10 (ix2 0 j)) v16 p q := by
  unfold k1_pay1 Cert.Sage.entry
  simp only [shapeCast_self]
  rw [addf_apply, addf_apply, matmul_zero_entry, matmul_zero_entry, broadcastTo_1b_ab_apply]
  simp only [mean_term]
  rfl

end Cert.KernelIdeal.Pay

end
-- ==== Proof.KRegion0.lean ====
/-
  What the first region leaves in its output array: the rectified layer, entry by entry, of the arrays its six input
  windows hold when the region is entered.

  The node axis is cut into 10 row blocks of 10000 rows. At grid point `t` the body loads rows
  [10000 t, 10000 t + 10000) of the neighbour sums, of the in-degree column and of the own features, and the whole weight
  matrices and bias row, and stores the layer's entries for those rows. An entry reads only its own row, so the block's
  entry at row `p` is the whole array's entry at row 10000 t + p; the ten blocks tile the array.
-/
import proofs.«418279_j34196529610766_2_alg».proof.Proof.Gen.KernelIdeal.Frame
import proofs.«418279_j34196529610766_2_alg».proof.Proof.KPayload
import proofs.«418279_j34196529610766_2_alg».proof.Proof.SageSpec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The array the region's output window ends holding. -/
abbrev out (c : Dev nD) : Cert.Sage.Arr 100000 64 :=
  Cert.Sage.layer true (V c main_v11) (fun r => V c main_v12 (ix2 r 0)) (V c main_arg0) (V c main_arg2) (fun j => V c main_v13 (ix2 0 j)) (V c main_arg4)

theorem hz : (![0, 0] : Fin 2 → Nat) = fun _ => 0 := funext fun a => by fin_cases a <;> rfl

/-- The printed index maps over the grid: the three row-block inputs and the output sit at block row `t`, column block 0;
    the weights and the bias row at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := by
  have h : t.val < grid0.N := t.isLt
  rw [N_0] at h; exact h

/-- Row `p` of block `t` is row 10000 t + p of the array. -/
abbrev rowOf (t : Fin cfg0.N) (p : Fin 10000) : Fin 100000 := ⟨t.val * 10000 + p.val, by have := t_lt t; have := p.isLt; omega⟩

/-! ## The six input blocks, read at an entry -/

theorem blk_sum (c : Dev nD) (t : Fin cfg0.N) (p : Fin 10000) (k : Fin 64) :
    iblk0 V c 0 t (ix2 p k) = V c main_v11 (ix2 (rowOf t p) k) := by
  obtain ⟨e00, e01, -⟩ := idx_facts t
  unfold iblk0
  rw [View.read_apply]
  show V c main_v11 _ = V c main_v11 _
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega

theorem blk_cnt (c : Dev nD) (t : Fin cfg0.N) (p : Fin 10000) :
    iblk0 V c 1 t (ix2 p 0) = V c main_v12 (ix2 (rowOf t p) 0) := by
  obtain ⟨-, -, e10, e11, -⟩ := idx_facts t
  unfold iblk0
  rw [View.read_apply]
  show V c main_v12 _ = V c main_v12 _
  refine congrArg _ ?_
  funext a; apply Fin.ext
  match a with
  | ⟨0, _⟩ => show win0_1.index t (0 : Fin 2) * 10000 + 1 * p.val = t.val * 10000 + p.val; omega
  | ⟨1, _⟩ => show win0_1.index t (1 : Fin 2) * 1 + 1 * 0 = 0; omega

theorem blk_x (c : Dev nD) (t : Fin cfg0.N) (p : Fin 10000) (k : Fin 64) :
    iblk0 V c 2 t (ix2 p k) = V c main_arg0 (ix2 (rowOf t p) k) := by
  obtain ⟨-, -, -, -, e20, e21, -⟩ := idx_facts t
  unfold iblk0
  rw [View.read_apply]
  show V c main_arg0 _ = V c main_arg0 _
  refine congrArg _ ?_
  funext a; apply Fin.ext
  match a with
  | ⟨0, _⟩ => show win0_2.index t (0 : Fin 2) * 10000 + 1 * p.val = t.val * 10000 + p.val; omega
  | ⟨1, _⟩ => show win0_2.index t (1 : Fin 2) * 64 + 1 * k.val = k.val; omega

theorem blk_wl (c : Dev nD) (t : Fin cfg0.N) : (iblk0 V c 3 t : Vec Ideal S64x64 .f32) = V c main_arg2 := by
  obtain ⟨-, -, -, -, -, -, e30, e31, -⟩ := idx_facts t
  funext y
  unfold iblk0
  rw [View.read_apply]
  show V c main_arg2 _ = V c main_arg2 y
  refine congrArg _ ?_
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blk_b (c : Dev nD) (t : Fin cfg0.N) : (iblk0 V c 4 t : Vec Ideal S1x64 .f32) = V c main_v13 := by
  obtain ⟨-, -, -, -, -, -, -, -, e40, e41, -⟩ := idx_facts t
  funext y
  unfold iblk0
  rw [View.read_apply]
  show V c main_v13 _ = V c main_v13 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

theorem blk_wr (c : Dev nD) (t : Fin cfg0.N) : (iblk0 V c 5 t : Vec Ideal S64x64 .f32) = V c main_arg4 := by
  obtain ⟨-, -, -, -, -, -, -, -, -, -, e50, e51, -⟩ := idx_facts t
  funext y
  unfold iblk0
  rw [View.read_apply]
  show V c main_arg4 _ = V c main_arg4 y
  refine congrArg _ ?_
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Entry `(p, q)` of output block `t` sits at `(10000 t + p, q)` of the array. -/
theorem emb_out (t : Fin cfg0.N) (p : Fin 10000) (q : Fin 64) :
    ((cfg0.win 6).blk t).view.emb (ix2 p q) = ix2 (rowOf t p) q := by
  obtain ⟨-, -, -, -, -, -, -, -, -, -, -, -, e60, e61⟩ := idx_facts t
  funext a; apply Fin.ext
  match a with
  | ⟨0, _⟩ => show win0_6.index t (0 : Fin 2) * 10000 + 1 * p.val = t.val * 10000 + p.val; omega
  | ⟨1, _⟩ => show win0_6.index t (1 : Fin 2) * 64 + 1 * q.val = q.val; omega

/-! ## What point `t` writes back, and the cover -/

/-- WHAT POINT `t` WRITES BACK is block `t` of the layer's array. -/
theorem flushed_eq (c : Dev nD) (t : Fin cfg0.N) :
    (dat0 (F := Ideal) V c).flushed 6 t = ((cfg0.win 6).blk t).view.read (Elt Ideal) (out V c) := by
  show (cfg0.win 6).cut (grid0.coords t) ((dat0 (F := Ideal) V c).after 6 t) = _
  rw [after0_6]
  unfold out0_6
  rw [View.canon_unit_zero hz]
  simp only [View.ld_unit_zero (S := S10000x1) hz, View.ld_unit_zero (S := S10000x64) hz, View.ld_unit_zero (S := S64x64) hz,
    View.ld_unit_zero (S := S1x64) hz]
  funext y
  obtain ⟨p, q, rfl⟩ : ∃ (p : Fin 10000) (q : Fin 64), y = ix2 p q := ⟨y 0, y 1, eq_ix2 y⟩
  rw [View.read_apply, emb_out]
  show k0_pay1 (F := Ideal) (iblk0 V c 1 t) (iblk0 V c 0 t) (iblk0 V c 3 t) (iblk0 V c 4 t) (iblk0 V c 2 t) (iblk0 V c 5 t) (ix2 p q) = _
  rw [blk_wl, blk_b, blk_wr]
  refine (Cert.KernelIdeal.Pay.pay0_entry _ _ _ _ _ _ p q).trans ?_
  show _ = Cert.Sage.entry true (V c main_v11) (fun r => V c main_v12 (ix2 r 0)) (V c main_arg0) (V c main_arg2)
    (fun j => V c main_v13 (ix2 0 j)) (V c main_arg4) (rowOf t p) q
  exact Cert.Sage.entry_congr true _ _ _ _ _ _ _ _ _ p (rowOf t p) q (fun k => blk_sum V c t p k) (blk_cnt V c t p)
    (fun k => blk_x V c t p k)

/-- An index of the array is in point `t`'s block iff each coordinate is in the block's range on its axis. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v14).slice (win0_6.rect t)).set ↔ _
  rw [View.set_slice_whole, Rect.mem_set_unit]
  exact Iff.rfl

/-- The ten row blocks cover the array: row `r` lies in block `r / 10000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN := N_0
  let t : Fin cfg0.N := ⟨(i 0).val / 10000, by show (i 0).val / 10000 < grid0.N; rw [hN]; omega⟩
  obtain ⟨-, -, -, -, -, -, -, -, -, -, -, -, e60, e61⟩ := idx_facts t
  have ht : t.val = (i 0).val / 10000 := rfl
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- THE ARRAY after the region: the layer of the six window arrays as the region found them. -/
theorem array_eq (c : Dev nD) : (dat0 (F := Ideal) V c).arrAt 6 cfg0.N = out V c :=
  (dat0 (F := Ideal) V c).arrAt_eq_of_cover 6 (out V c) (fun t _ => flushed_eq V c t) (cover)

end Cert.KernelIdeal.Region0

end
-- ==== Proof.KHost.lean ====
/-
  The kernel program's host side, named: what its host operations compute from the feature table and the edge list,
  and what each row-block window's array holds when its region is entered.

  From the edge list `e` (row 0 the source ids, row 1 the destination ids): `srcCol` is the source ids with a
  negative id counted from the end (+100000), as a column; `dstCol` the destination ids as a column; `inRange` marks
  the edges whose wrapped source id lies in [0, 99999]. `taken X e` gathers row `srcCol` of the table `X` per edge and
  replaces the rows of the unmarked edges by the filler word; `aggK X e` adds each edge's taken row into its
  destination's row of a zero table (the neighbour sums); `cntK e` adds 1.0 per edge into its destination's slot (the
  in-degrees). The first region is entered with the windows at `aggK x e`, `cntK e` as a column, `x`, `W1_l`, `b1`
  as a row, `W1_r`; the second at `aggK h e`, the same in-degree column, `h`, `W2_l`, `b2` as a row, `W2_r`, where
  `h` is the array the first region leaves.
-/
import proofs.«418279_j34196529610766_2_alg».proof.Proof.Gen.KernelIdeal.Frame
import Idealize.ShloMosaic.Lib.StableHlo.Run

noncomputable section

namespace Cert.KernelIdeal.HostSide

open Idealize.ShloMosaic Idealize.ShloMosaic.TcCoe Idealize.SL.Sem Idealize.ShloMosaic.StableHlo Cert.KernelIdeal Cert.KernelIdeal.Gen

variable {F : FTy → Type} [FloatOps F]

/-- Row 0 of the edge list: the source ids. -/
def srcVec (e : IVec S2x1200000 32) : IVec S1200000 32 :=
  shapeCast S1200000 (extractStridedSlice S1x1200000 ![0, 0] e slices_S2x1200000_S1x1200000_0_0) shapeCasts_S1x1200000_S1200000
/-- Row 1 of the edge list: the destination ids. -/
def dstVec (e : IVec S2x1200000 32) : IVec S1200000 32 :=
  shapeCast S1200000 (extractStridedSlice S1x1200000 ![1, 0] e slices_S2x1200000_S1x1200000_1_0) shapeCasts_S1x1200000_S1200000
/-- The source ids, a negative one counted from the end of the 100000 rows. -/
def wrapped (e : IVec S2x1200000 32) : IVec S1200000 32 :=
  select (cmpi .slt (srcVec e) (broadcastInDim S1200000 ![] bcast_S_S1200000 (constantI S_ 32 0#32)))
    (addi (srcVec e) (broadcastInDim S1200000 ![] bcast_S_S1200000 (constantI S_ 32 100000#32))) (srcVec e)
/-- The wrapped source ids as a column of start indices. -/
def srcCol (e : IVec S2x1200000 32) : IVec S1200000x1 32 := broadcastInDim S1200000x1 ![0] bcast_S1200000_S1200000x1_0 (wrapped e)
/-- The destination ids as a column of scatter indices. -/
def dstCol (e : IVec S2x1200000 32) : IVec S1200000x1 32 := broadcastInDim S1200000x1 ![0] bcast_S1200000_S1200000x1_0 (dstVec e)
/-- Per edge: is the wrapped source id in [0, 99999]? -/
def inRange (e : IVec S2x1200000 32) : IVec S1200000 1 :=
  Host.reduce IntOp.andi
    (andi (cmpi .sge (srcCol e) (broadcastInDim S1200000x1 ![] bcast_S_S1200000x1 (constantI S_ 32 0#32)))
      (cmpi .sle (srcCol e) (broadcastInDim S1200000x1 ![0, 1] bcast_S1x1_S1200000x1_0_1 (broadcastInDim S1x1 ![1] bcast_S1_S1x1_1 (constantI S1 32 99999#32)))))
    (constantI S_ 1 1#1) reducesTo_S1200000x1_S1200000_d1 h_S_
/-- Per edge, the source's row of the table `X`; the filler word's row where the id is out of range. -/
def taken (X : FVec F S100000x64 .f32) (e : IVec S2x1200000 32) : FVec F S1200000x64 .f32 :=
  select (broadcastInDim S1200000x64 ![0] bcast_S1200000_S1200000x64_0 (inRange e))
    (Host.gather gather_S100000x64_S1200000x1_S1200000x64_1_0_n_n_0_1_164 X (srcCol e))
    (broadcastInDim S1200000x64 ![] bcast_S_S1200000x64 (constant S_ .f32 0x7FC00000#32))
/-- The neighbour sums: every edge's taken row added into its destination's row of a zero table. -/
def aggK (X : FVec F S100000x64 .f32) (e : IVec S2x1200000 32) : FVec F S100000x64 .f32 :=
  Host.scatterAdd scatter_S100000x64_S1200000x1_S1200000x64_1_0_0_1
    (broadcastInDim S100000x64 ![] bcast_S_S100000x64 (constant S_ .f32 0x00000000#32)) (dstCol e) (taken X e)
/-- The in-degrees: 1.0 per edge added into its destination's slot of a zero vector. -/
def cntK (e : IVec S2x1200000 32) : FVec F S100000 .f32 :=
  Host.scatterAdd scatter_S100000_S1200000x1_S1200000_n_0_0_1
    (broadcastInDim S100000 ![] bcast_S_S100000 (constant S_ .f32 0x00000000#32)) (dstCol e)
    (broadcastInDim S1200000 ![] bcast_S_S1200000 (constant S_ .f32 0x3F800000#32))

/-! ## Typed references: contents moved to a buffer's own type and back are unchanged -/

theorem ofBuf_toBuf {T : BufTy} {Val : EltTy → Type} (x : TRef sig T) (v : T.Contents Val) : x.ofBuf (x.toBuf v) = v := by
  obtain ⟨r, h, _, _⟩ := x
  subst h
  rfl

/-- At a literal reference the move is the identity: the buffer's type is the value's by computation. -/
theorem ofBuf_main_v1 (p q r) (v : IVec S1200000 32) :
    (TRef.of main_v1 p q r : TRef sig ⟨S1200000, .i32⟩).ofBuf (Val := Elt F) v = v := rfl
theorem ofBuf_main_arg0 (p q r) (v : FVec F S100000x64 .f32) :
    (TRef.of main_arg0 p q r : TRef sig ⟨S100000x64, .f32⟩).ofBuf (Val := Elt F) v = v := rfl
theorem ofBuf_main_v14 (p q r) (v : FVec F S100000x64 .f32) :
    (TRef.of main_v14 p q r : TRef sig ⟨S100000x64, .f32⟩).ofBuf (Val := Elt F) v = v := rfl
theorem toBuf_main_v8 (p q r) (v : FVec F S1200000x64 .f32) :
    (TRef.of main_v8 p q r : TRef sig ⟨S1200000x64, .f32⟩).toBuf (Val := Elt F) v = v := rfl
theorem toBuf_main_v15 (p q r) (v : FVec F S1200000x64 .f32) :
    (TRef.of main_v15 p q r : TRef sig ⟨S1200000x64, .f32⟩).toBuf (Val := Elt F) v = v := rfl

/-! ## What each stretch leaves alone

Each stretch's operations write one buffer apiece; a buffer that is none of them holds after the stretch what it held
before. -/

/-- The references the operations of `hostOps0` write; any other buffer is as before the stretch. -/
def wr0 : List (Ref sig .tc) := [main_v0, main_v1, main_v2, main_v3, main_cst, main_v4, main_cst_0, main_v5, main_v6, main_v7]
theorem keep0 (W : Valuation τ sig (Elt F)) (b : Ref sig .tc) (hb : b ∉ wr0) :
    StableHlo.after (hostOps0 (F := F)) W (Proc.devRef .tc b) = W (Proc.devRef .tc b) :=
  StableHlo.after_of_writes_sub _ W (by
    simp only [hostOps0, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The references the operations of `hostOps0_1` write; any other buffer is as before the stretch. -/
def wr01 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
theorem keep01 (W : Valuation τ sig (Elt F)) (b : Ref sig .tc) (hb : b ∉ wr01) :
    StableHlo.after (hostOps0_1 (F := F)) W (Proc.devRef .tc b) = W (Proc.devRef .tc b) :=
  StableHlo.after_of_writes_sub _ W (by
    simp only [hostOps0_1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The references the operations of `hostOps0_2` write; any other buffer is as before the stretch. -/
def wr02 : List (Ref sig .tc) := [main_cst_1, main_v9, main_v10, main_v11, main_v12, main_v13]
theorem keep02 (W : Valuation τ sig (Elt F)) (b : Ref sig .tc) (hb : b ∉ wr02) :
    StableHlo.after (hostOps0_2 (F := F)) W (Proc.devRef .tc b) = W (Proc.devRef .tc b) :=
  StableHlo.after_of_writes_sub _ W (by
    simp only [hostOps0_2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The references the operations of `hostOps1` write; any other buffer is as before the stretch. -/
def wr1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v15]
theorem keep1 (W : Valuation τ sig (Elt F)) (b : Ref sig .tc) (hb : b ∉ wr1) :
    StableHlo.after (hostOps1 (F := F)) W (Proc.devRef .tc b) = W (Proc.devRef .tc b) :=
  StableHlo.after_of_writes_sub _ W (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-- The references the operations of `hostOps1_1` write; any other buffer is as before the stretch. -/
def wr11 : List (Ref sig .tc) := [main_cst_2, main_v16, main_v17, main_v18, main_v19, main_v20]
theorem keep11 (W : Valuation τ sig (Elt F)) (b : Ref sig .tc) (hb : b ∉ wr11) :
    StableHlo.after (hostOps1_1 (F := F)) W (Proc.devRef .tc b) = W (Proc.devRef .tc b) :=
  StableHlo.after_of_writes_sub _ W (by
    simp only [hostOps1_1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hb

/-! ## What each stretch of host operations computes, read from any starting memory `W`

A buffer the stretch writes holds that operation's function of its operands' contents; where an operand was written
by an earlier stretch, what it holds enters as a hypothesis on `W`. -/

theorem s0_v1 (W : Valuation τ sig (Elt F)) :
    StableHlo.after (hostOps0 (F := F)) W (Proc.devRef .tc main_v1) = srcVec (W (Proc.devRef .tc main_arg1)) := by
  after_results_simp <;> rfl
theorem s0_v3 (W : Valuation τ sig (Elt F)) :
    StableHlo.after (hostOps0 (F := F)) W (Proc.devRef .tc main_v3) = dstVec (W (Proc.devRef .tc main_arg1)) := by
  after_results_simp <;> rfl
theorem s0_v7 (W : Valuation τ sig (Elt F)) :
    StableHlo.after (hostOps0 (F := F)) W (Proc.devRef .tc main_v7) = cntK (F := F) (W (Proc.devRef .tc main_arg1)) := by
  after_results_simp <;> rfl

/-- The gather of the first layer: the table is the first argument. -/
theorem s01_v8 (W : Valuation τ sig (Elt F)) (e : IVec S2x1200000 32) (h1 : W (Proc.devRef .tc main_v1) = srcVec e) :
    StableHlo.after (hostOps0_1 (F := F)) W (Proc.devRef .tc main_v8) = taken (W (Proc.devRef .tc main_arg0)) e := by
  after_results_simp
  simp only [ofBuf_toBuf, ofBuf_main_v1, ofBuf_main_arg0, toBuf_main_v8, h1]
  rfl

theorem s02_v11 (W : Valuation τ sig (Elt F)) (X : FVec F S100000x64 .f32) (e : IVec S2x1200000 32)
    (h3 : W (Proc.devRef .tc main_v3) = dstVec e) (h8 : W (Proc.devRef .tc main_v8) = taken X e) :
    StableHlo.after (hostOps0_2 (F := F)) W (Proc.devRef .tc main_v11) = aggK X e := by
  after_results_simp
  simp only [h3, h8]
  rfl
theorem s02_v12 (W : Valuation τ sig (Elt F)) (v : FVec F S100000 .f32) (h7 : W (Proc.devRef .tc main_v7) = v) :
    StableHlo.after (hostOps0_2 (F := F)) W (Proc.devRef .tc main_v12) = shapeCast S100000x1 v shapeCasts_S100000_S100000x1 := by
  after_results_simp
  simp only [h7]
  rfl
theorem s02_v13 (W : Valuation τ sig (Elt F)) (v : FVec F S64 .f32) (h : W (Proc.devRef .tc main_arg3) = v) :
    StableHlo.after (hostOps0_2 (F := F)) W (Proc.devRef .tc main_v13) = shapeCast S1x64 v shapeCasts_S64_S1x64 := by
  after_results_simp
  simp only [h]
  rfl

/-- The gather of the second layer: the table is the first region's output array. -/
theorem s1_v15 (W : Valuation τ sig (Elt F)) (e : IVec S2x1200000 32) (h1 : W (Proc.devRef .tc main_v1) = srcVec e) :
    StableHlo.after (hostOps1 (F := F)) W (Proc.devRef .tc main_v15) = taken (W (Proc.devRef .tc main_v14)) e := by
  after_results_simp
  simp only [ofBuf_toBuf, ofBuf_main_v1, ofBuf_main_v14, toBuf_main_v15, h1]
  rfl

theorem s11_v18 (W : Valuation τ sig (Elt F)) (X : FVec F S100000x64 .f32) (e : IVec S2x1200000 32)
    (h3 : W (Proc.devRef .tc main_v3) = dstVec e) (h15 : W (Proc.devRef .tc main_v15) = taken X e) :
    StableHlo.after (hostOps1_1 (F := F)) W (Proc.devRef .tc main_v18) = aggK X e := by
  after_results_simp
  simp only [h3, h15]
  rfl
theorem s11_v19 (W : Valuation τ sig (Elt F)) (v : FVec F S100000 .f32) (h7 : W (Proc.devRef .tc main_v7) = v) :
    StableHlo.after (hostOps1_1 (F := F)) W (Proc.devRef .tc main_v19) = shapeCast S100000x1 v shapeCasts_S100000_S100000x1 := by
  after_results_simp
  simp only [h7]
  rfl
theorem s11_v20 (W : Valuation τ sig (Elt F)) (v : FVec F S64 .f32) (h : W (Proc.devRef .tc main_arg6) = v) :
    StableHlo.after (hostOps1_1 (F := F)) W (Proc.devRef .tc main_v20) = shapeCast S1x64 v shapeCasts_S64_S1x64 := by
  after_results_simp
  simp only [h]
  rfl

variable (m : (ℓ : Loc nD τ sig) → Buf (Elt F) ℓ) (ρ : Dev nD → PrngReg)

/-! ## The memory at each boundary, one stretch at a time -/

theorem W1_of (c : Dev nD) (b : Ref sig .tc) (hb : b ∉ wr0) : W1 m ρ c (Proc.devRef .tc b) = m ((c : Thread nD τ).loc b) := keep0 (W0 m ρ c) b hb
theorem W2_of (c : Dev nD) (b : Ref sig .tc) (hb : b ∉ wr01) : W2 m ρ c (Proc.devRef .tc b) = W1 m ρ c (Proc.devRef .tc b) := keep01 (W1 m ρ c) b hb
theorem W3_of (c : Dev nD) (b : Ref sig .tc) (hb : b ∉ wr02) : W3 m ρ c (Proc.devRef .tc b) = W2 m ρ c (Proc.devRef .tc b) := keep02 (W2 m ρ c) b hb
theorem W5_of (c : Dev nD) (b : Ref sig .tc) (hb : b ∉ wr1) : W5 m ρ c (Proc.devRef .tc b) = W4 m ρ c (Proc.devRef .tc b) := keep1 (W4 m ρ c) b hb
theorem W6_of (c : Dev nD) (b : Ref sig .tc) (hb : b ∉ wr11) : W6 m ρ c (Proc.devRef .tc b) = W5 m ρ c (Proc.devRef .tc b) := keep11 (W5 m ρ c) b hb

/-- A buffer no host operation before the first region writes is, at that region's entry, as launched. -/
theorem W3_arg (c : Dev nD) (b : Ref sig .tc) (h0 : b ∉ wr0) (h1 : b ∉ wr01) (h2 : b ∉ wr02) :
    W3 m ρ c (Proc.devRef .tc b) = m ((c : Thread nD τ).loc b) :=
  (W3_of m ρ c b h2).trans ((W2_of m ρ c b h1).trans (W1_of m ρ c b h0))
/-- A buffer the first stretch wrote and nothing up to the second region's take writes again: it crosses the first
    region (which replaces only its own window arrays) and the stretches around it unchanged. -/
theorem W4_of_W1 (c : Dev nD) (b : Ref sig .tc) (h1 : b ∉ wr01) (h2 : b ∉ wr02) (hr : ∀ w, Pipeline.arrRef spec0 w ≠ b) :
    W4 m ρ c (Proc.devRef .tc b) = W1 m ρ c (Proc.devRef .tc b) :=
  (W4_of_ne m ρ c b hr).trans ((W3_of m ρ c b h2).trans (W2_of m ρ c b h1))
/-- A buffer nothing writes at all is, at the second region's entry, as launched. -/
theorem W6_arg (c : Dev nD) (b : Ref sig .tc) (h0 : b ∉ wr0) (h1 : b ∉ wr01) (h2 : b ∉ wr02)
    (hr : ∀ w, Pipeline.arrRef spec0 w ≠ b) (h3 : b ∉ wr1) (h4 : b ∉ wr11) :
    W6 m ρ c (Proc.devRef .tc b) = m ((c : Thread nD τ).loc b) :=
  (W6_of m ρ c b h4).trans ((W5_of m ρ c b h3).trans ((W4_of_ne m ρ c b hr).trans (W3_arg m ρ c b h0 h1 h2)))

theorem W1_v1 (c : Dev nD) : W1 m ρ c (Proc.devRef .tc main_v1) = srcVec (m ((c : Thread nD τ).loc main_arg1)) := s0_v1 (W0 m ρ c)
theorem W1_v3 (c : Dev nD) : W1 m ρ c (Proc.devRef .tc main_v3) = dstVec (m ((c : Thread nD τ).loc main_arg1)) := s0_v3 (W0 m ρ c)
theorem W1_v7 (c : Dev nD) : W1 m ρ c (Proc.devRef .tc main_v7) = cntK (F := F) (m ((c : Thread nD τ).loc main_arg1)) := s0_v7 (W0 m ρ c)

/-! ## The first region's windows at its entry -/

theorem V3_sum (c : Dev nD) : V3 m ρ c main_v11 = aggK (m ((c : Thread nD τ).loc main_arg0)) (m ((c : Thread nD τ).loc main_arg1)) :=
  s02_v11 (W2 m ρ c) _ _ ((W2_of m ρ c main_v3 (by decide)).trans (W1_v3 m ρ c))
    ((s01_v8 (W1 m ρ c) _ (W1_v1 m ρ c)).trans (congrArg (fun X => taken X (m ((c : Thread nD τ).loc main_arg1))) (W1_of m ρ c main_arg0 (by decide))))
theorem V3_cnt (c : Dev nD) : V3 m ρ c main_v12 = shapeCast S100000x1 (cntK (F := F) (m ((c : Thread nD τ).loc main_arg1))) shapeCasts_S100000_S100000x1 :=
  s02_v12 (W2 m ρ c) _ ((W2_of m ρ c main_v7 (by decide)).trans (W1_v7 m ρ c))
theorem V3_x (c : Dev nD) : V3 m ρ c main_arg0 = m ((c : Thread nD τ).loc main_arg0) :=
  W3_arg m ρ c main_arg0 (by decide) (by decide) (by decide)
theorem V3_wl (c : Dev nD) : V3 m ρ c main_arg2 = m ((c : Thread nD τ).loc main_arg2) :=
  W3_arg m ρ c main_arg2 (by decide) (by decide) (by decide)
theorem V3_b (c : Dev nD) : V3 m ρ c main_v13 = shapeCast S1x64 (m ((c : Thread nD τ).loc main_arg3)) shapeCasts_S64_S1x64 :=
  s02_v13 (W2 m ρ c) _ ((W2_of m ρ c main_arg3 (by decide)).trans (W1_of m ρ c main_arg3 (by decide)))
theorem V3_wr (c : Dev nD) : V3 m ρ c main_arg4 = m ((c : Thread nD τ).loc main_arg4) :=
  W3_arg m ρ c main_arg4 (by decide) (by decide) (by decide)

/-! ## The second region's windows at its entry; `h` is the first region's output array -/

/-- The array the first region leaves in its output window's buffer. -/
abbrev hidden (c : Dev nD) : FVec F S100000x64 .f32 := W4 m ρ c (Proc.devRef .tc main_v14)

theorem V6_sum (c : Dev nD) : V6 m ρ c main_v18 = aggK (hidden m ρ c) (m ((c : Thread nD τ).loc main_arg1)) :=
  s11_v18 (W5 m ρ c) _ _
    ((W5_of m ρ c main_v3 (by decide)).trans ((W4_of_W1 m ρ c main_v3 (by decide) (by decide) (by decide)).trans (W1_v3 m ρ c)))
    (s1_v15 (W4 m ρ c) _ ((W4_of_W1 m ρ c main_v1 (by decide) (by decide) (by decide)).trans (W1_v1 m ρ c)))
theorem V6_cnt (c : Dev nD) : V6 m ρ c main_v19 = shapeCast S100000x1 (cntK (F := F) (m ((c : Thread nD τ).loc main_arg1))) shapeCasts_S100000_S100000x1 :=
  s11_v19 (W5 m ρ c) _
    ((W5_of m ρ c main_v7 (by decide)).trans ((W4_of_W1 m ρ c main_v7 (by decide) (by decide) (by decide)).trans (W1_v7 m ρ c)))
theorem V6_h (c : Dev nD) : V6 m ρ c main_v14 = hidden m ρ c :=
  (W6_of m ρ c main_v14 (by decide)).trans (W5_of m ρ c main_v14 (by decide))
theorem V6_wl (c : Dev nD) : V6 m ρ c main_arg5 = m ((c : Thread nD τ).loc main_arg5) :=
  W6_arg m ρ c main_arg5 (by decide) (by decide) (by decide) (by decide) (by decide) (by decide)
theorem V6_b (c : Dev nD) : V6 m ρ c main_v20 = shapeCast S1x64 (m ((c : Thread nD τ).loc main_arg6)) shapeCasts_S64_S1x64 :=
  s11_v20 (W5 m ρ c) _ ((W5_of m ρ c main_arg6 (by decide)).trans
    ((W4_of_ne m ρ c main_arg6 (by decide)).trans (W3_arg m ρ c main_arg6 (by decide) (by decide) (by decide))))
theorem V6_wr (c : Dev nD) : V6 m ρ c main_arg7 = m ((c : Thread nD τ).loc main_arg7) :=
  W6_arg m ρ c main_arg7 (by decide) (by decide) (by decide) (by decide) (by decide) (by decide)

end Cert.KernelIdeal.HostSide

end
-- ==== Proof.RefValue.lean ====
/-
  The reference program's result as the two-layer function of its arguments.

  The host code forms, from the edge list `e`, the source ids wrapped (a negative id counted from the end) as a column
  `srcCol` and the destination ids as a column `dstCol`; `aggR X e` gathers row `srcCol` of the table `X` per edge and
  adds it into the destination's row of a zero table (the neighbour sums), `cntR e` adds 1.0 per edge into its
  destination's slot (the in-degrees). Each layer then divides the sums by max(in-degree, 1), multiplies by the left
  weights, adds the bias and the node's own row times the right weights; the first layer is rectified and feeds the
  second both as the table to aggregate and as the own-feature input: `Cert.Sage.twoLayer`.
-/
import proofs.«418279_j34196529610766_2_alg».proof.Proof.Gen.ReferenceIdeal.Read
import proofs.«418279_j34196529610766_2_alg».proof.Proof.SageSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen

variable {F : FTy → Type} [FloatOps F]

/-- Row 0 of the edge list: the source ids. -/
def srcVec (e : IVec S2x1200000 32) : IVec S1200000 32 :=
  shapeCast S1200000 (extractStridedSlice S1x1200000 ![0, 0] e slices_S2x1200000_S1x1200000_0_0) shapeCasts_S1x1200000_S1200000
/-- Row 1 of the edge list: the destination ids. -/
def dstVec (e : IVec S2x1200000 32) : IVec S1200000 32 :=
  shapeCast S1200000 (extractStridedSlice S1x1200000 ![1, 0] e slices_S2x1200000_S1x1200000_1_0) shapeCasts_S1x1200000_S1200000
/-- The source ids, a negative one counted from the end of the 100000 rows. -/
def wrapped (e : IVec S2x1200000 32) : IVec S1200000 32 :=
  select (cmpi .slt (srcVec e) (broadcastInDim S1200000 ![] bcast_S_S1200000 (constantI S_ 32 0#32)))
    (addi (srcVec e) (broadcastInDim S1200000 ![] bcast_S_S1200000 (constantI S_ 32 100000#32))) (srcVec e)
/-- The wrapped source ids as a column of start indices. -/
def srcCol (e : IVec S2x1200000 32) : IVec S1200000x1 32 := broadcastInDim S1200000x1 ![0] bcast_S1200000_S1200000x1_0 (wrapped e)
/-- The destination ids as a column of scatter indices. -/
def dstCol (e : IVec S2x1200000 32) : IVec S1200000x1 32 := broadcastInDim S1200000x1 ![0] bcast_S1200000_S1200000x1_0 (dstVec e)
/-- The neighbour sums: every edge's source row of `X` added into its destination's row of a zero table. -/
def aggR (X : FVec F S100000x64 .f32) (e : IVec S2x1200000 32) : FVec F S100000x64 .f32 :=
  Host.scatterAdd scatter_S100000x64_S1200000x1_S1200000x64_1_0_0_1
    (broadcastInDim S100000x64 ![] bcast_S_S100000x64 (constant S_ .f32 0x00000000#32)) (dstCol e)
    (Host.gather gather_S100000x64_S1200000x1_S1200000x64_1_0_n_n_0_1_164 X (srcCol e))
/-- The in-degrees: 1.0 per edge added into its destination's slot of a zero vector. -/
def cntR (e : IVec S2x1200000 32) : FVec F S100000 .f32 :=
  Host.scatterAdd scatter_S100000_S1200000x1_S1200000_n_0_0_1
    (broadcastInDim S100000 ![] bcast_S_S100000 (constant S_ .f32 0x00000000#32)) (dstCol e)
    (broadcastInDim S1200000 ![] bcast_S_S1200000 (constant S_ .f32 0x3F800000#32))

/-! ### The neighbour sums and the in-degrees are the same operations in both layers -/

/-- The first layer's neighbour sums: the reference's scatter of the gathered rows of its first argument. -/
theorem sums_first (x0 : FVec F S100000x64 .f32) (x1 : IVec S2x1200000 32) :
    Read.val_main_v13 (F := F) x0 x1 = aggR x0 x1 := by
  unfold Read.val_main_v13 Read.val_main_v12 Read.val_main_v11 Read.val_main_cst Read.val_main_v10 Read.val_main_v9
    Read.val_main_v8 Read.val_main_v7 Read.val_main_v6 Read.val_main_c_0 Read.val_main_v5 Read.val_main_v4 Read.val_main_c
    Read.val_main_v3 Read.val_main_v2 Read.val_main_v1 Read.val_main_v0
    aggR dstCol srcCol wrapped dstVec srcVec
  rfl

/-- The first layer's in-degrees. -/
theorem degrees_first (x1 : IVec S2x1200000 32) : Read.val_main_v17 (F := F) x1 = cntR x1 := by
  unfold Read.val_main_v17 Read.val_main_v16 Read.val_main_v15 Read.val_main_cst_2 Read.val_main_v14 Read.val_main_cst_1
    Read.val_main_v3 Read.val_main_v2 cntR dstCol dstVec
  rfl

/-- The second layer's neighbour sums: the same scatter of gathered rows, of the first layer's output; the wrapped ids
    and the two columns are recomputed from the edge list, to the same values. -/
theorem sums_second (x0 : FVec F S100000x64 .f32) (x1 : IVec S2x1200000 32) (x2 : FVec F S64x64 .f32) (x3 : FVec F S64 .f32)
    (x4 : FVec F S64x64 .f32) :
    Read.val_main_v39 (F := F) x0 x1 x2 x3 x4 = aggR (Read.val_main_v29 (F := F) x0 x1 x2 x3 x4) x1 := by
  unfold Read.val_main_v39 Read.val_main_v38 Read.val_main_v37 Read.val_main_cst_6 Read.val_main_v36 Read.val_main_v35
    Read.val_main_v34 Read.val_main_v33 Read.val_main_v32 Read.val_main_c_5 Read.val_main_v31 Read.val_main_v30 Read.val_main_c_4
    Read.val_main_v3 Read.val_main_v2 Read.val_main_v1 Read.val_main_v0
    aggR dstCol srcCol wrapped dstVec srcVec
  rfl

/-- The second layer's in-degrees. -/
theorem degrees_second (x1 : IVec S2x1200000 32) : Read.val_main_v43 (F := F) x1 = cntR x1 := by
  unfold Read.val_main_v43 Read.val_main_v42 Read.val_main_v41 Read.val_main_cst_8 Read.val_main_v40 Read.val_main_cst_7
    Read.val_main_v3 Read.val_main_v2 cntR dstCol dstVec
  rfl

/-! ### Where the dense part reads its operands: row r, column j, contraction position k -/

theorem lidx23 (r : Fin 100000) (j k : Fin 64) : Read.lidx_main_v23 (ix2 r j) k = ix2 r k :=
  funext fun a => Fin.ext (by match a with | ⟨0, _⟩ => rfl | ⟨1, _⟩ => rfl)
theorem ridx23 (r : Fin 100000) (j k : Fin 64) : Read.ridx_main_v23 (ix2 r j) k = ix2 k j :=
  funext fun a => Fin.ext (by match a with | ⟨0, _⟩ => rfl | ⟨1, _⟩ => rfl)
theorem lidx27 (r : Fin 100000) (j k : Fin 64) : Read.lidx_main_v27 (ix2 r j) k = ix2 r k :=
  funext fun a => Fin.ext (by match a with | ⟨0, _⟩ => rfl | ⟨1, _⟩ => rfl)
theorem ridx27 (r : Fin 100000) (j k : Fin 64) : Read.ridx_main_v27 (ix2 r j) k = ix2 k j :=
  funext fun a => Fin.ext (by match a with | ⟨0, _⟩ => rfl | ⟨1, _⟩ => rfl)
theorem lidx49 (r : Fin 100000) (j k : Fin 64) : Read.lidx_main_v49 (ix2 r j) k = ix2 r k :=
  funext fun a => Fin.ext (by match a with | ⟨0, _⟩ => rfl | ⟨1, _⟩ => rfl)
theorem ridx49 (r : Fin 100000) (j k : Fin 64) : Read.ridx_main_v49 (ix2 r j) k = ix2 k j :=
  funext fun a => Fin.ext (by match a with | ⟨0, _⟩ => rfl | ⟨1, _⟩ => rfl)
theorem lidx53 (r : Fin 100000) (j k : Fin 64) : Read.lidx_main_v53 (ix2 r j) k = ix2 r k :=
  funext fun a => Fin.ext (by match a with | ⟨0, _⟩ => rfl | ⟨1, _⟩ => rfl)
theorem ridx53 (r : Fin 100000) (j k : Fin 64) : Read.ridx_main_v53 (ix2 r j) k = ix2 k j :=
  funext fun a => Fin.ext (by match a with | ⟨0, _⟩ => rfl | ⟨1, _⟩ => rfl)
/-- The divisor's two broadcasts read the in-degree vector at the row. -/
theorem row21 (r : Fin 100000) (k : Fin 64) : Read.idx_main_v20 (Read.idx_main_v21 (ix2 r k)) = ix1 r :=
  funext fun a => Fin.ext (by match a with | ⟨0, _⟩ => rfl)
theorem row47 (r : Fin 100000) (k : Fin 64) : Read.idx_main_v46 (Read.idx_main_v47 (ix2 r k)) = ix1 r :=
  funext fun a => Fin.ext (by match a with | ⟨0, _⟩ => rfl)
/-- The bias's two broadcasts read the bias vector at the column. -/
theorem col25 (r : Fin 100000) (j : Fin 64) : Read.idx_main_v24 (Read.idx_main_v25 (ix2 r j)) = ix1 j :=
  funext fun a => Fin.ext (by match a with | ⟨0, _⟩ => rfl)
theorem col51 (r : Fin 100000) (j : Fin 64) : Read.idx_main_v50 (Read.idx_main_v51 (ix2 r j)) = ix1 j :=
  funext fun a => Fin.ext (by match a with | ⟨0, _⟩ => rfl)

/-! ### The mean of the neighbours, entry by entry -/

/-- The first layer's quotient at row r, position k: the neighbour sum over the in-degree floored at 1.0. -/
theorem mean_first (x0 : FVec Ideal S100000x64 .f32) (x1 : IVec S2x1200000 32) (r : Fin 100000) (k : Fin 64) :
    Read.val_main_v22 (F := Ideal) x0 x1 (ix2 r k)
      = Ideal.div (aggR (F := Ideal) x0 x1 (ix2 r k)) (max (cntR (F := Ideal) x1 (ix1 r)) Cert.Sage.one) := by
  rw [Read.val_main_v22_apply, Read.val_main_v21_apply, Read.val_main_v20_apply, Read.val_main_v19_apply, Read.val_main_v18_apply,
    Read.val_main_cst_3_apply, row21, sums_first, degrees_first, Ideal.hostDivf_def, Ideal.maximumf_def, Ideal.ofBits_def]

/-- The second layer's quotient at row r, position k, over the second layer's sums and in-degrees. -/
theorem mean_second (x0 : FVec Ideal S100000x64 .f32) (x1 : IVec S2x1200000 32) (x2 : FVec Ideal S64x64 .f32) (x3 : FVec Ideal S64 .f32)
    (x4 : FVec Ideal S64x64 .f32) (r : Fin 100000) (k : Fin 64) :
    Read.val_main_v48 (F := Ideal) x0 x1 x2 x3 x4 (ix2 r k)
      = Ideal.div (Read.val_main_v39 (F := Ideal) x0 x1 x2 x3 x4 (ix2 r k))
          (max (Read.val_main_v43 (F := Ideal) x1 (ix1 r)) Cert.Sage.one) := by
  rw [Read.val_main_v48_apply, Read.val_main_v47_apply, Read.val_main_v46_apply, Read.val_main_v45_apply, Read.val_main_v44_apply,
    Read.val_main_cst_9_apply, row47, Ideal.hostDivf_def, Ideal.maximumf_def, Ideal.ofBits_def]

/-! ### The two layers as arrays -/

/-- The rectified first layer, over the first layer's sums and in-degrees. -/
theorem first_layer (x0 : FVec Ideal S100000x64 .f32) (x1 : IVec S2x1200000 32) (x2 : FVec Ideal S64x64 .f32) (x3 : FVec Ideal S64 .f32)
    (x4 : FVec Ideal S64x64 .f32) :
    Read.val_main_v29 (F := Ideal) x0 x1 x2 x3 x4
      = Cert.Sage.layer true (aggR (F := Ideal) x0 x1) (fun r => cntR (F := Ideal) x1 (ix1 r)) x0 x2 (fun j => x3 (ix1 j)) x4 := by
  funext i
  obtain ⟨r, j, rfl⟩ : ∃ (r : Fin 100000) (j : Fin 64), i = ix2 r j := ⟨i 0, i 1, eq_ix2 i⟩
  rw [Cert.Sage.layer_ix2]
  rw [Read.val_main_v29_apply, Read.val_main_v28_apply, Read.val_main_v26_apply, Read.val_main_v23_apply, Read.val_main_v25_apply,
    Read.val_main_v24_apply, Read.val_main_v27_apply, Read.val_main_call0_v0_apply, Read.val_main_call0_cst_apply, col25,
    Ideal.maximumf_def, Ideal.addf_def, Ideal.addf_def, Ideal.ofBits_def]
  have hl : ∀ k : Fin 64, Read.val_main_v22 (F := Ideal) x0 x1 (Read.lidx_main_v23 (ix2 r j) k) * x2 (Read.ridx_main_v23 (ix2 r j) k)
      = Ideal.div (aggR (F := Ideal) x0 x1 (ix2 r k)) (max (cntR (F := Ideal) x1 (ix1 r)) Cert.Sage.one) * x2 (ix2 k j) := fun k => by
    rw [lidx23, ridx23, mean_first]
  have hr : ∀ k : Fin 64, x0 (Read.lidx_main_v27 (ix2 r j) k) * x4 (Read.ridx_main_v27 (ix2 r j) k) = x0 (ix2 r k) * x4 (ix2 k j) :=
    fun k => by rw [lidx27, ridx27]
  rw [Finset.sum_congr rfl (fun k _ => hl k), Finset.sum_congr rfl (fun k _ => hr k)]
  unfold Cert.Sage.entry
  exact (if_pos rfl).symm

/-- The second layer, not rectified, over the second layer's sums and in-degrees and the first layer's output. -/
theorem second_layer (x0 : FVec Ideal S100000x64 .f32) (x1 : IVec S2x1200000 32) (x2 : FVec Ideal S64x64 .f32) (x3 : FVec Ideal S64 .f32)
    (x4 x5 : FVec Ideal S64x64 .f32) (x6 : FVec Ideal S64 .f32) (x7 : FVec Ideal S64x64 .f32) :
    Read.val_main_v54 (F := Ideal) x0 x1 x2 x3 x4 x5 x6 x7
      = Cert.Sage.layer false (Read.val_main_v39 (F := Ideal) x0 x1 x2 x3 x4) (fun r => Read.val_main_v43 (F := Ideal) x1 (ix1 r))
          (Read.val_main_v29 (F := Ideal) x0 x1 x2 x3 x4) x5 (fun j => x6 (ix1 j)) x7 := by
  funext i
  obtain ⟨r, j, rfl⟩ : ∃ (r : Fin 100000) (j : Fin 64), i = ix2 r j := ⟨i 0, i 1, eq_ix2 i⟩
  rw [Cert.Sage.layer_ix2]
  rw [Read.val_main_v54_apply, Read.val_main_v52_apply, Read.val_main_v49_apply, Read.val_main_v51_apply, Read.val_main_v50_apply,
    Read.val_main_v53_apply, col51, Ideal.addf_def, Ideal.addf_def]
  have hl : ∀ k : Fin 64,
      Read.val_main_v48 (F := Ideal) x0 x1 x2 x3 x4 (Read.lidx_main_v49 (ix2 r j) k) * x5 (Read.ridx_main_v49 (ix2 r j) k)
        = Ideal.div (Read.val_main_v39 (F := Ideal) x0 x1 x2 x3 x4 (ix2 r k))
            (max (Read.val_main_v43 (F := Ideal) x1 (ix1 r)) Cert.Sage.one) * x5 (ix2 k j) := fun k => by
    rw [lidx49, ridx49, mean_second]
  have hr : ∀ k : Fin 64,
      Read.val_main_v29 (F := Ideal) x0 x1 x2 x3 x4 (Read.lidx_main_v53 (ix2 r j) k) * x7 (Read.ridx_main_v53 (ix2 r j) k)
        = Read.val_main_v29 (F := Ideal) x0 x1 x2 x3 x4 (ix2 r k) * x7 (ix2 k j) := fun k => by rw [lidx53, ridx53]
  rw [Finset.sum_congr rfl (fun k _ => hl k), Finset.sum_congr rfl (fun k _ => hr k)]
  generalize Read.val_main_v39 (F := Ideal) x0 x1 x2 x3 x4 = S
  generalize Read.val_main_v43 (F := Ideal) x1 = c
  generalize Read.val_main_v29 (F := Ideal) x0 x1 x2 x3 x4 = H
  unfold Cert.Sage.entry
  exact (if_neg (by decide)).symm

/-- The reference's last stage, at the ideal instance, is the two-layer function of its eight arguments. -/
theorem stage_eq (x0 : FVec Ideal S100000x64 .f32) (x1 : IVec S2x1200000 32) (x2 : FVec Ideal S64x64 .f32) (x3 : FVec Ideal S64 .f32)
    (x4 x5 : FVec Ideal S64x64 .f32) (x6 : FVec Ideal S64 .f32) (x7 : FVec Ideal S64x64 .f32) :
    Cert.ReferenceIdeal.Read.val_main_v54 (F := Ideal) x0 x1 x2 x3 x4 x5 x6 x7
      = Cert.Sage.twoLayer (fun X => aggR (F := Ideal) X x1) (fun r => cntR (F := Ideal) x1 (ix1 r)) x0 x2 (fun j => x3 (ix1 j)) x4 x5
          (fun j => x6 (ix1 j)) x7 := by
  rw [second_layer, sums_second, degrees_second, first_layer]
  unfold Cert.Sage.twoLayer
  rfl

/-- So the term the reference's run ends at is that function of the launch memory's arguments. -/
theorem result_eq (m : (ℓ : Loc nD τ sig) → Buf (Elt Ideal) ℓ) (c : Dev nD) :
    Cert.ReferenceIdeal.Value.res_main_v54 (F := Ideal) m c
      = Cert.Sage.twoLayer (fun X => aggR (F := Ideal) X (m ((c.tc : Thread nD τ).loc main_arg1)))
          (fun r => cntR (F := Ideal) (m ((c.tc : Thread nD τ).loc main_arg1)) (ix1 r))
          (m ((c.tc : Thread nD τ).loc main_arg0)) (m ((c.tc : Thread nD τ).loc main_arg2))
          (fun j => m ((c.tc : Thread nD τ).loc main_arg3) (ix1 j)) (m ((c.tc : Thread nD τ).loc main_arg4))
          (m ((c.tc : Thread nD τ).loc main_arg5)) (fun j => m ((c.tc : Thread nD τ).loc main_arg6) (ix1 j))
          (m ((c.tc : Thread nD τ).loc main_arg7)) :=
  (Cert.ReferenceIdeal.Read.val_main_v54_eq (F := Ideal) m c).trans (stage_eq _ _ _ _ _ _ _ _)

end Cert.ReferenceIdeal.RefValue

end
-- ==== Proof.Glue.lean ====
/-
  Where every source id indexes a row of the table, the kernel program's host side forms the same neighbour sums and
  in-degrees as the reference's.

  The precondition's last conjunct says: for every edge, the source id — plus 100000 if negative — lies in [0, 99999].
  That is, word for word, the test the kernel program's gather makes per edge before it keeps a gathered row (else it
  substitutes a filler row): under the precondition the test passes on every edge, the select keeps every gathered row,
  and the two programs scatter-add the same rows at the same destinations. The in-degrees never depended on the test.
-/
import proofs.«418279_j34196529610766_2_alg».proof.Proof.KHost
import proofs.«418279_j34196529610766_2_alg».proof.Proof.RefValue
import proofs.«418279_j34196529610766_2_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.Proof.Glue

open Idealize.ShloMosaic Idealize.ShloMosaic.TcCoe Idealize.ShloMosaic.ValueIdx Idealize.SL.Sem

/-- The rank-zero shape has exactly one index. -/
local instance : Subsingleton (⟨0, ![]⟩ : Shape).Idx := ⟨fun a b => funext fun d => d.elim0⟩

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1) (f a) = 1#1 := by rw [h a (List.mem_cons_self ..)]; decide
    rw [List.foldl_cons, e]
    exact foldl_andi_ones f l fun n hn => h n (List.mem_cons_of_mem _ hn)

/-- A reduce by `and` from 1 of an array of ones is one at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun i _ => hx i

/-- The precondition's last conjunct, read at one edge. -/
theorem wrapped_inRange (x0 : FVec Ideal Cert.KernelIdeal.S100000x64 .f32) (x1 : IVec Cert.KernelIdeal.S2x1200000 32)
    (x2 : FVec Ideal Cert.KernelIdeal.S64x64 .f32) (x3 : FVec Ideal Cert.KernelIdeal.S64 .f32) (x4 x5 : FVec Ideal Cert.KernelIdeal.S64x64 .f32)
    (x6 : FVec Ideal Cert.KernelIdeal.S64 .f32) (x7 : FVec Ideal Cert.KernelIdeal.S64x64 .f32)
    (hpre : Cert.Pre_finite_inputs.fn (F := Ideal) x0 x1 x2 x3 x4 x5 x6 x7 = fun _ => 1#1) (q : Cert.KernelIdeal.S1200000.Idx) :
    IntOp.andi (IntOp.cmpi .sge (Cert.KernelIdeal.HostSide.wrapped x1 q) 0#32)
      (IntOp.cmpi .sle (Cert.KernelIdeal.HostSide.wrapped x1 q) 99999#32) = 1#1 := by
  have h0 := congrFun hpre ValueIdx.ix0
  dsimp only [Cert.Pre_finite_inputs.fn, Cert.Pre_finite_inputs.fn_part1, Cert.Pre_finite_inputs.fn_part2] at h0
  change IntOp.andi _ _ = 1#1 at h0
  have h1 := (IntOp.andi_eq_one.1 h0).2
  exact Host.reduce_andi_all _ _ _ _ _ h1 q

/-- The kernel program's column of wrapped source ids, read at a row, is the wrapped source id of that edge. -/
theorem srcCol_apply (e : IVec Cert.KernelIdeal.S2x1200000 32) (i : Cert.KernelIdeal.S1200000x1.Idx) :
    Cert.KernelIdeal.HostSide.srcCol e i = Cert.KernelIdeal.HostSide.wrapped e (ix1 (i 0)) := by
  unfold Cert.KernelIdeal.HostSide.srcCol
  refine broadcastInDim_apply _ _ _ i (ix1 (i 0)) fun a => ?_
  have ha : a = 0 := Subsingleton.elim _ _
  subst ha
  rfl

/-- Under the precondition every edge's wrapped source id passes the range test. -/
theorem inRange_all (x0 : FVec Ideal Cert.KernelIdeal.S100000x64 .f32) (x1 : IVec Cert.KernelIdeal.S2x1200000 32)
    (x2 : FVec Ideal Cert.KernelIdeal.S64x64 .f32) (x3 : FVec Ideal Cert.KernelIdeal.S64 .f32) (x4 x5 : FVec Ideal Cert.KernelIdeal.S64x64 .f32)
    (x6 : FVec Ideal Cert.KernelIdeal.S64 .f32) (x7 : FVec Ideal Cert.KernelIdeal.S64x64 .f32)
    (hpre : Cert.Pre_finite_inputs.fn (F := Ideal) x0 x1 x2 x3 x4 x5 x6 x7 = fun _ => 1#1) :
    Cert.KernelIdeal.HostSide.inRange x1 = fun _ => 1#1 := by
  funext p
  unfold Cert.KernelIdeal.HostSide.inRange
  refine reduce_andi_ones _ _ _ _ rfl (fun i => ?_) p
  show IntOp.andi (IntOp.cmpi .sge (Cert.KernelIdeal.HostSide.srcCol x1 i) 0#32)
    (IntOp.cmpi .sle (Cert.KernelIdeal.HostSide.srcCol x1 i) 99999#32) = 1#1
  rw [srcCol_apply]
  exact wrapped_inRange x0 x1 x2 x3 x4 x5 x6 x7 hpre _

/-! ## The two programs name the same records and the same columns -/

/-- The gather's dimension record is the same record in both programs. -/
theorem gatherDims_eq :
    Cert.KernelIdeal.gather_S100000x64_S1200000x1_S1200000x64_1_0_n_n_0_1_164
      = Cert.ReferenceIdeal.gather_S100000x64_S1200000x1_S1200000x64_1_0_n_n_0_1_164 := rfl

/-- The row scatter's dimension record is the same record in both programs. -/
theorem scatterRows_eq :
    Cert.KernelIdeal.scatter_S100000x64_S1200000x1_S1200000x64_1_0_0_1
      = Cert.ReferenceIdeal.scatter_S100000x64_S1200000x1_S1200000x64_1_0_0_1 := rfl

/-- The slot scatter's dimension record is the same record in both programs. -/
theorem scatterSlots_eq :
    Cert.KernelIdeal.scatter_S100000_S1200000x1_S1200000_n_0_0_1
      = Cert.ReferenceIdeal.scatter_S100000_S1200000x1_S1200000_n_0_0_1 := rfl

/-- The column of wrapped source ids is the same function of the edge list in both programs. -/
theorem srcCol_eq (e : IVec Cert.KernelIdeal.S2x1200000 32) :
    Cert.KernelIdeal.HostSide.srcCol e = Cert.ReferenceIdeal.RefValue.srcCol e := rfl

/-- The column of destination ids is the same function of the edge list in both programs. -/
theorem dstCol_eq (e : IVec Cert.KernelIdeal.S2x1200000 32) :
    Cert.KernelIdeal.HostSide.dstCol e = Cert.ReferenceIdeal.RefValue.dstCol e := rfl

/-- Where every edge passes the range test, the rows the kernel program takes are the gathered rows. -/
theorem taken_eq {F : FTy → Type} [FloatOps F] (X : FVec F Cert.KernelIdeal.S100000x64 .f32) (e : IVec Cert.KernelIdeal.S2x1200000 32)
    (h : Cert.KernelIdeal.HostSide.inRange e = fun _ => 1#1) :
    Cert.KernelIdeal.HostSide.taken X e
      = Host.gather Cert.KernelIdeal.gather_S100000x64_S1200000x1_S1200000x64_1_0_n_n_0_1_164 X (Cert.KernelIdeal.HostSide.srcCol e) := by
  unfold Cert.KernelIdeal.HostSide.taken
  rw [h]
  funext i
  rw [select_apply]
  exact select_one _ _

/-- With every edge in range the kernel program's neighbour sums are the reference's, for any table `X`. -/
theorem aggK_eq_aggR (x0 : FVec Ideal Cert.KernelIdeal.S100000x64 .f32) (x1 : IVec Cert.KernelIdeal.S2x1200000 32)
    (x2 : FVec Ideal Cert.KernelIdeal.S64x64 .f32) (x3 : FVec Ideal Cert.KernelIdeal.S64 .f32) (x4 x5 : FVec Ideal Cert.KernelIdeal.S64x64 .f32)
    (x6 : FVec Ideal Cert.KernelIdeal.S64 .f32) (x7 : FVec Ideal Cert.KernelIdeal.S64x64 .f32)
    (hpre : Cert.Pre_finite_inputs.fn (F := Ideal) x0 x1 x2 x3 x4 x5 x6 x7 = fun _ => 1#1)
    (X : FVec Ideal Cert.KernelIdeal.S100000x64 .f32) :
    Cert.KernelIdeal.HostSide.aggK (F := Ideal) X x1 = Cert.ReferenceIdeal.RefValue.aggR (F := Ideal) X x1 := by
  unfold Cert.KernelIdeal.HostSide.aggK Cert.ReferenceIdeal.RefValue.aggR
  rw [taken_eq X x1 (inRange_all x0 x1 x2 x3 x4 x5 x6 x7 hpre), gatherDims_eq, scatterRows_eq, srcCol_eq, dstCol_eq]

/-- The in-degrees are the same function of the edge list in both programs. -/
theorem cntK_eq_cntR (x1 : IVec Cert.KernelIdeal.S2x1200000 32) :
    Cert.KernelIdeal.HostSide.cntK (F := Ideal) x1 = Cert.ReferenceIdeal.RefValue.cntR (F := Ideal) x1 := by
  unfold Cert.KernelIdeal.HostSide.cntK Cert.ReferenceIdeal.RefValue.cntR
  rw [scatterSlots_eq, dstCol_eq]

end Cert.Proof.Glue

end
-- ==== Proof.lean ====
/-
  The certificate of a two-layer mean-aggregation graph network: a kernel program that forms the neighbour sums and
  in-degrees on the host and runs each layer's dense part — divide the sums by max(in-degree, 1), multiply by the left
  weights, add the bias and the node's own row times the right weights, rectify after the first layer — as a pipelined
  region over 10 row blocks of 10000 nodes, against the plain host reference.

  At the ideal instance both programs compute `Cert.Sage.twoLayer`: the same sums of products over the 64 features in the
  same association, the same quotient, the same two f32 words 1.0 and 0.0. They differ in one place only: the kernel
  program's gather substitutes a filler row for an edge whose source id (a negative one counted from the end) is not a
  row of the table, where the reference's gather clamps the id. The precondition's last conjunct says every source id
  indexes a row, so the substitution never happens (`Cert.Proof.Glue`), and the two results are one function of the
  arguments. No law of the extended reals beyond that is used: the finiteness conjuncts are not opened.

  The three frames are the generated ones (the reference's from its run); the idealization rewrote nothing, so
  `preserves` is trivial.
-/
import proofs.«418279_j34196529610766_2_alg».proof.Defs
import proofs.«418279_j34196529610766_2_alg».proof.Proof.Gen.Kernel
import proofs.«418279_j34196529610766_2_alg».proof.Proof.Gen.Kernel.Skeleton
import proofs.«418279_j34196529610766_2_alg».proof.Proof.Gen.Kernel.Launch
import proofs.«418279_j34196529610766_2_alg».proof.Proof.Gen.Kernel.Points
import proofs.«418279_j34196529610766_2_alg».proof.Proof.Gen.Kernel.Frame
import proofs.«418279_j34196529610766_2_alg».proof.Proof.Gen.KernelIdeal
import proofs.«418279_j34196529610766_2_alg».proof.Proof.Gen.KernelIdeal.Skeleton
import proofs.«418279_j34196529610766_2_alg».proof.Proof.Gen.KernelIdeal.Launch
import proofs.«418279_j34196529610766_2_alg».proof.Proof.Gen.KernelIdeal.Points
import proofs.«418279_j34196529610766_2_alg».proof.Proof.Gen.KernelIdeal.Frame
import proofs.«418279_j34196529610766_2_alg».proof.Proof.Gen.ReferenceIdeal
import proofs.«418279_j34196529610766_2_alg».proof.Proof.Gen.ReferenceIdeal.Run
import proofs.«418279_j34196529610766_2_alg».proof.Proof.Gen.ReferenceIdeal.Read
import proofs.«418279_j34196529610766_2_alg».proof.Proof.Gen.Pre_finite_inputs
import proofs.«418279_j34196529610766_2_alg».proof.Proof.SageSpec
import proofs.«418279_j34196529610766_2_alg».proof.Proof.KRun
import proofs.«418279_j34196529610766_2_alg».proof.Proof.KRegion0
import proofs.«418279_j34196529610766_2_alg».proof.Proof.KRegion1
import proofs.«418279_j34196529610766_2_alg».proof.Proof.KHost
import proofs.«418279_j34196529610766_2_alg».proof.Proof.RefValue
import proofs.«418279_j34196529610766_2_alg».proof.Proof.Glue
import Idealize.ShloMosaic.Lib.Pipeline.Value
import Idealize.ShloMosaic.Lib.ValueIdx
import Idealize.ShloMosaic.Adequacy
import Idealize.ShloMosaic.Init

set_option maxRecDepth 16384

noncomputable section

/-! ## The kernel program's result array as the two-layer function -/

namespace Cert.KernelIdeal.Result

open Idealize.ShloMosaic Idealize.ShloMosaic.TcCoe Idealize.ShloMosaic.ValueIdx Idealize.SL.Sem Cert.KernelIdeal Cert.KernelIdeal.Gen
open Cert.KernelIdeal.HostSide

/-- A vector laid out as a column reads, at (r, 0), the vector at r. -/
theorem col_apply (v : FVec Ideal S100000 .f32) (h : S100000.ShapeCasts S100000x1) (r : Fin 100000) :
    shapeCast S100000x1 v h (ix2 r 0) = v (ix1 r) :=
  shapeCast_apply v h (ix2 r 0) (ix1 r) (by
    rw [Shape.rowMajor_val_one, Shape.rowMajor_val_two]
    show r.val = r.val * 1 + 0
    omega)

/-- A vector laid out as a row reads, at (0, j), the vector at j. -/
theorem row_apply (v : FVec Ideal S64 .f32) (h : S64.ShapeCasts S1x64) (j : Fin 64) :
    shapeCast S1x64 v h (ix2 0 j) = v (ix1 j) :=
  shapeCast_apply v h (ix2 0 j) (ix1 j) (by
    rw [Shape.rowMajor_val_one, Shape.rowMajor_val_two]
    show j.val = 0 * 64 + j.val
    omega)

variable (m : (ℓ : Loc nD τ sig) → Buf (Elt Ideal) ℓ) (ρ : Dev nD → PrngReg)

/-- The first region leaves the rectified first layer of the launch arguments. -/
theorem hidden_eq (c : Dev nD) :
    hidden m ρ c = Cert.Sage.layer true (aggK (F := Ideal) (m ((c : Thread nD τ).loc main_arg0)) (m ((c : Thread nD τ).loc main_arg1)))
      (fun r => cntK (F := Ideal) (m ((c : Thread nD τ).loc main_arg1)) (ix1 r)) (m ((c : Thread nD τ).loc main_arg0))
      (m ((c : Thread nD τ).loc main_arg2)) (fun j => m ((c : Thread nD τ).loc main_arg3) (ix1 j)) (m ((c : Thread nD τ).loc main_arg4)) := by
  show W4 m ρ c (Proc.devRef .tc main_v14) = _
  rw [show W4 m ρ c (Proc.devRef .tc main_v14) = (dat0 (V3 m ρ) c).arrAt 6 cfg0.N from W4_arr m ρ c 6]
  rw [Cert.KernelIdeal.Region0.array_eq]
  unfold Cert.KernelIdeal.Region0.out
  rw [V3_sum, V3_cnt, V3_x, V3_wl, V3_b, V3_wr]
  simp only [col_apply, row_apply (m ((c : Thread nD τ).loc main_arg3))]

/-- The second region leaves the second layer over the first region's array: the program's result. -/
theorem result_eq (c : Dev nD) :
    W7 m ρ c (Proc.devRef .tc main_v21)
      = Cert.Sage.twoLayer (fun X => aggK (F := Ideal) X (m ((c : Thread nD τ).loc main_arg1)))
          (fun r => cntK (F := Ideal) (m ((c : Thread nD τ).loc main_arg1)) (ix1 r))
          (m ((c : Thread nD τ).loc main_arg0)) (m ((c : Thread nD τ).loc main_arg2))
          (fun j => m ((c : Thread nD τ).loc main_arg3) (ix1 j)) (m ((c : Thread nD τ).loc main_arg4))
          (m ((c : Thread nD τ).loc main_arg5)) (fun j => m ((c : Thread nD τ).loc main_arg6) (ix1 j))
          (m ((c : Thread nD τ).loc main_arg7)) := by
  rw [show W7 m ρ c (Proc.devRef .tc main_v21) = (dat1 (V6 m ρ) c).arrAt 6 cfg1.N from W7_arr m ρ c 6]
  rw [Cert.KernelIdeal.Region1.array_eq]
  unfold Cert.KernelIdeal.Region1.out
  rw [V6_sum, V6_cnt, V6_h, V6_wl, V6_b, V6_wr]
  simp only [col_apply, row_apply (m ((c : Thread nD τ).loc main_arg6))]
  rw [hidden_eq]
  rfl

end Cert.KernelIdeal.Result

/-! ## The claims -/

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the two-layer function of those arguments: the kernel
    program by its two regions' arrays read through its host side, the reference by its run; under the precondition the
    two host sides form the same neighbour sums. -/
theorem algebraic : Cert.algebraic_KernelIdeal_ReferenceIdeal := by
  intro m ρ m' ρ' hpre hagree
  refine ⟨fun c => Cert.KernelIdeal.Gen.W7 m ρ c (Proc.devRef .tc Cert.KernelIdeal.main_v21),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show _ = Cert.KernelIdeal.Gen.W7 m ρ c (Proc.devRef .tc Cert.KernelIdeal.main_v21)
  rw [Cert.ReferenceIdeal.RefValue.result_eq, Cert.KernelIdeal.Result.result_eq, a0, a1, a2, a3, a4, a5, a6, a7]
  have hagg : (fun X => Cert.KernelIdeal.HostSide.aggK (F := Ideal) X (m ((c.tc : Thread Cert.KernelIdeal.nD Cert.KernelIdeal.τ).loc Cert.KernelIdeal.main_arg1)))
      = fun X => Cert.ReferenceIdeal.RefValue.aggR (F := Ideal) X (m ((c.tc : Thread Cert.KernelIdeal.nD Cert.KernelIdeal.τ).loc Cert.KernelIdeal.main_arg1)) :=
    funext fun X => Cert.Proof.Glue.aggK_eq_aggR _ _ _ _ _ _ _ _ (hpre c) X
  rw [hagg, Cert.Proof.Glue.cntK_eq_cntR]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
